-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S256x768 : Shape := ⟨2, ![256, 768]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S256x768 : S_.BroadcastsInDim S256x768 (![] : Fin 0 → Fin S256x768.rank)
  reducesTo_S256x768_S_d0_1 : S256x768.ReducesTo [0, 1] S_

variable [Facts]

def fn {F : FTy → Type} [FloatOps F] (main_arg0 : FVec F S16x1024x768 .f32) (main_arg1 : FVec F S256x768 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  main_v8
-- ==== Kernel.lean ====
abbrev S16x1024x768 : Shape := ⟨3, ![16, 1024, 768]⟩
abbrev S256x768 : Shape := ⟨2, ![256, 768]⟩
abbrev S16384x768 : Shape := ⟨2, ![16384, 768]⟩
abbrev S16384x256 : Shape := ⟨2, ![16384, 256]⟩
abbrev S1024x768 : Shape := ⟨2, ![1024, 768]⟩
abbrev S1024x256 : Shape := ⟨2, ![1024, 256]⟩
abbrev S1024 : Shape := ⟨1, ![1024]⟩
abbrev S1024x1 : Shape := ⟨2, ![1024, 1]⟩
abbrev S256 : Shape := ⟨1, ![256]⟩
abbrev S768x256 : Shape := ⟨2, ![768, 256]⟩
abbrev S1x256 : Shape := ⟨2, ![1, 256]⟩
abbrev S16x1024x256 : Shape := ⟨3, ![16, 1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S16x1024x768, .f32⟩
  | .hbm, ⟨1, _⟩ => ⟨S256x768, .f32⟩
  | .hbm, ⟨2, _⟩ => ⟨S16384x768, .f32⟩
  | .hbm, ⟨3, _⟩ => ⟨S16384x256, .f32⟩
  | .hbm, ⟨4, _⟩ => ⟨S16x1024x256, .f32⟩
  | .local _ .vmem, ⟨0, _⟩ => ⟨S1024x768, .f32⟩
  | .local _ .vmem, ⟨1, _⟩ => ⟨S1024x768, .f32⟩
  | .local _ .vmem, ⟨2, _⟩ => ⟨S256x768, .f32⟩
  | .local _ .vmem, ⟨3, _⟩ => ⟨S1024x256, .f32⟩
  | .local _ .vmem, ⟨4, _⟩ => ⟨S1024x256, .f32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x1024x768_S16384x768 : S16x1024x768.ShapeCasts S16384x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S256x768_S256x768_0_0 : ∀ a, (![0, 0] : Fin 2 → Nat) a + S256x768.size a ≤ S256x768.size a
  h_S256x768 : 0 < S256x768.numel
  reduces_S1024x768_S1024 : S1024x768.Reduces [1] S1024
  shapeCasts_S1024_S1024x1 : S1024.ShapeCasts S1024x1
  reduces_S256x768_S256 : S256x768.Reduces [1] S256
  bitsLt_bf16_f32 : FTy.bits .bf16 < FTy.bits .f32
  transposes_S256x768_p1_0_S768x256 : S256x768.Transposes [1, 0] S768x256
  shapeCasts_S256_S1x256 : S256.ShapeCasts S1x256
  broadcasts_S1024x1_S1024x256 : S1024x1.Broadcasts S1024x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S16384x256_S16x1024x256 : S16384x256.ShapeCasts S16x1024x256
  dot_S1024x768_S768x256_S1024x256_1_0_0_1_n_n_wf : DotDims.WF S1024x768 S768x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)

variable [Facts₀]

def dot_S1024x768_S768x256_S1024x256_1_0_0_1_n_n : DotDims S1024x768 S768x256 S1024x256 where
  lhsContracting := [1]
  rhsContracting := [0]
  lhsNonContracting := [0]
  rhsNonContracting := [1]
  lhsBatch := []
  rhsBatch := []
  wf := dot_S1024x768_S768x256_S1024x256_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x768 : Shape := ⟨3, ![16, 1024, 768]⟩
abbrev S256x768 : Shape := ⟨2, ![256, 768]⟩
abbrev S_ : Shape := ⟨0, ![]⟩
abbrev S16x1024 : Shape := ⟨2, ![16, 1024]⟩
abbrev S16x1024x1 : Shape := ⟨3, ![16, 1024, 1]⟩
abbrev S256 : Shape := ⟨1, ![256]⟩
abbrev S16x1024x256 : Shape := ⟨3, ![16, 1024, 256]⟩
abbrev S1x1x256 : Shape := ⟨3, ![1, 1, 256]⟩

abbrev nBuf : Space → Nat
  | .hbm => 18
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S256x768, .f32⟩
  | .hbm, ⟨2, _⟩ => ⟨S16x1024x768, .f32⟩
  | .hbm, ⟨3, _⟩ => ⟨S_, .f32⟩
  | .hbm, ⟨4, _⟩ => ⟨S16x1024, .f32⟩
  | .hbm, ⟨5, _⟩ => ⟨S16x1024x1, .f32⟩
  | .hbm, ⟨6, _⟩ => ⟨S256x768, .f32⟩
  | .hbm, ⟨7, _⟩ => ⟨S_, .f32⟩
  | .hbm, ⟨8, _⟩ => ⟨S256, .f32⟩
  | .hbm, ⟨9, _⟩ => ⟨S16x1024x256, .f32⟩
  | .hbm, ⟨10, _⟩ => ⟨S1x1x256, .f32⟩
  | .hbm, ⟨11, _⟩ => ⟨S16x1024x256, .f32⟩
  | .hbm, ⟨12, _⟩ => ⟨S16x1024x256, .f32⟩
  | .hbm, ⟨13, _⟩ => ⟨S16x1024x256, .f32⟩
  | .hbm, ⟨14, _⟩ => ⟨S_, .f32⟩
  | .hbm, ⟨15, _⟩ => ⟨S16x1024x256, .f32⟩
  | .hbm, ⟨16, _⟩ => ⟨S16x1024x256, .f32⟩
  | .hbm, ⟨17, _⟩ => ⟨S16x1024x256, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16x1024x768_S16x1024_d2 : S16x1024x768.ReducesTo [2] S16x1024
  h_S_ : 0 < S_.numel
  bcast_S16x1024_S16x1024x1_0_1 : S16x1024.BroadcastsInDim S16x1024x1 (![0, 1] : Fin 2 → Fin S16x1024x1.rank)
  reducesTo_S256x768_S256_d1 : S256x768.ReducesTo [1] S256
  bcast_S256_S1x1x256_2 : S256.BroadcastsInDim S1x1x256 (![2] : Fin 1 → Fin S1x1x256.rank)
  bcast_S16x1024x1_S16x1024x256_0_1_2 : S16x1024x1.BroadcastsInDim S16x1024x256 (![0, 1, 2] : Fin 3 → Fin S16x1024x256.rank)
  bcast_S1x1x256_S16x1024x256_0_1_2 : S1x1x256.BroadcastsInDim S16x1024x256 (![0, 1, 2] : Fin 3 → Fin S16x1024x256.rank)
  bcast_S_S16x1024x256 : S_.BroadcastsInDim S16x1024x256 (![] : Fin 0 → Fin S16x1024x256.rank)
  dot_S16x1024x768_S256x768_S16x1024x256_2_1_01_0_n_n_wf : DotDims.WF S16x1024x768 S256x768 S16x1024x256 [2] [1] [0, 1] [0] [] []

variable [Facts₀]

def dot_S16x1024x768_S256x768_S16x1024x256_2_1_01_0_n_n : DotDims S16x1024x768 S256x768 S16x1024x256 where
  lhsContracting := [2]
  rhsContracting := [1]
  lhsNonContracting := [0, 1]
  rhsNonContracting := [0]
  lhsBatch := []
  rhsBatch := []
  wf := dot_S16x1024x768_S256x768_S16x1024x256_2_1_01_0_n_n_wf

class Facts : Prop extends Facts₀ where

variable [Facts]
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  One entry of the block the kernel body writes.

  The body holds a block of 1024 row vectors `x0` and all 256 prototypes `x1`, each of length 768, and stores a
  `1024 × 256` block. Entry `(r, q)` of it is
  `(Σₖ x0[r,k]² + Σₖ x1[q,k]²) − 2 · Σₖ x0[r,k] · x1[q,k]`:
  the sum of squares along each row of `x0` is kept as a column and spread over the 256 lanes, the sum of squares
  along each prototype is laid as a row and spread over the 1024 rows, and the matrix product pairs row `r` of `x0`
  with column `q` of the transposed prototypes, which is prototype `q`. The change of format before the product is
  the identity on extended reals, and the product accumulates into zero.
-/
import proofs.«116255_j50818053047012_1_alg».proof.Proof.Gen.KernelIdeal.Skeleton
import proofs.«116255_j50818053047012_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- A sum along the rows of an `[a, n]` array, read at row `r`, is the sum over `k` of the entries `(r, k)`. -/
theorem rowSum_apply {a n : ℕ} (v : FVec Ideal ⟨2, ![a, n]⟩ .f32) (h : (⟨2, ![a, n]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => congrArg v ?_
  funext c
  apply Fin.ext
  match c with
  | ⟨0, _⟩ => rfl
  | ⟨1, _⟩ => rfl

/-! ## The matrix product at an entry -/

/-- The left operand's row is the entry's row. -/
theorem mm_lhs_0 (i : S1024x256.Idx) (q : dot_S1024x768_S768x256_S1024x256_1_0_0_1_n_n.contr.Idx) :
    (dot_S1024x768_S768x256_S1024x256_1_0_0_1_n_n.lhsIdx i q 0).val = (i 0).val := by
  unfold DotDims.lhsIdx
  rw [dif_neg (show ¬(0 : Fin S1024x768.rank) ∈ dot_S1024x768_S768x256_S1024x256_1_0_0_1_n_n.lhsBatch by decide), dif_pos (show (0 : Fin S1024x768.rank) ∈ dot_S1024x768_S768x256_S1024x256_1_0_0_1_n_n.lhsNonContracting by decide)]
  rfl
/-- The left operand's column is the contraction position. -/
theorem mm_lhs_1 (i : S1024x256.Idx) (q : dot_S1024x768_S768x256_S1024x256_1_0_0_1_n_n.contr.Idx) :
    (dot_S1024x768_S768x256_S1024x256_1_0_0_1_n_n.lhsIdx i q 1).val = (q ⟨0, by decide⟩).val :=
  dot_S1024x768_S768x256_S1024x256_1_0_0_1_n_n.lhsIdx_val_of_single rfl i q
/-- The right operand's row is the contraction position. -/
theorem mm_rhs_0 (i : S1024x256.Idx) (q : dot_S1024x768_S768x256_S1024x256_1_0_0_1_n_n.contr.Idx) :
    (dot_S1024x768_S768x256_S1024x256_1_0_0_1_n_n.rhsIdx i q 0).val = (q ⟨0, by decide⟩).val :=
  dot_S1024x768_S768x256_S1024x256_1_0_0_1_n_n.rhsIdx_val_of_single rfl i q
/-- The right operand's column is the entry's column. -/
theorem mm_rhs_1 (i : S1024x256.Idx) (q : dot_S1024x768_S768x256_S1024x256_1_0_0_1_n_n.contr.Idx) :
    (dot_S1024x768_S768x256_S1024x256_1_0_0_1_n_n.rhsIdx i q 1).val = (i 1).val := by
  unfold DotDims.rhsIdx
  rw [dif_neg (show ¬(1 : Fin S768x256.rank) ∈ dot_S1024x768_S768x256_S1024x256_1_0_0_1_n_n.rhsBatch by decide), dif_pos (show (1 : Fin S768x256.rank) ∈ dot_S1024x768_S768x256_S1024x256_1_0_0_1_n_n.rhsNonContracting by decide)]
  rfl

/-- A `[1024, 768] × [768, 256]` product accumulated into zero, at `(r, q)`: the sum over `k` of `l[r,k] · t[k,q]`. -/
theorem product_apply (l : FVec Ideal S1024x768 .bf16) (t : FVec Ideal S768x256 .bf16) (r : Fin 1024) (q : Fin 256) :
    matmul dot_S1024x768_S768x256_S1024x256_1_0_0_1_n_n none l t (constant (F := Ideal) S1024x256 .f32 0x00000000#32) (ix2 r q)
      = ∑ k : Fin 768, l (ix2 r k) * t (ix2 k q) := by
  simp only [matmul]
  rw [Ideal.matmul_constant_zero_apply, ← Equiv.sum_comp (contrEquiv1 dot_S1024x768_S768x256_S1024x256_1_0_0_1_n_n 768 rfl rfl).symm]
  refine Finset.sum_congr rfl fun k _ => ?_
  have hk := contrEquiv1_symm_val dot_S1024x768_S768x256_S1024x256_1_0_0_1_n_n 768 rfl rfl k
  have el : dot_S1024x768_S768x256_S1024x256_1_0_0_1_n_n.lhsIdx (ix2 r q) ((contrEquiv1 dot_S1024x768_S768x256_S1024x256_1_0_0_1_n_n 768 rfl rfl).symm k) = ix2 r k := funext fun a => Fin.ext (by
    match a with
    | ⟨0, _⟩ => exact mm_lhs_0 _ _
    | ⟨1, _⟩ => exact (mm_lhs_1 _ _).trans hk)
  have er : dot_S1024x768_S768x256_S1024x256_1_0_0_1_n_n.rhsIdx (ix2 r q) ((contrEquiv1 dot_S1024x768_S768x256_S1024x256_1_0_0_1_n_n 768 rfl rfl).symm k) = ix2 k q := funext fun a => Fin.ext (by
    match a with
    | ⟨0, _⟩ => exact (mm_rhs_0 _ _).trans hk
    | ⟨1, _⟩ => exact mm_rhs_1 _ _)
  rw [el, er]

/-! ## The stored block at an entry -/

/-- Entry `(r, q)` of the block the body stores, from the block of rows `x0` and the prototypes `x1`. -/
theorem pay_apply (x0 : Vec Ideal S1024x768 .f32) (x1 : Vec Ideal S256x768 .f32) (r : Fin 1024) (q : Fin 256) :
    k0_pay1 (F := Ideal) x0 x1 (ix2 r q)
      = ((∑ k : Fin 768, x0 (ix2 r k) * x0 (ix2 r k)) + ∑ k : Fin 768, x1 (ix2 q k) * x1 (ix2 q k))
        - Ideal.ofBits .f32 0x40000000#32 * ∑ k : Fin 768, x0 (ix2 r k) * x1 (ix2 q k) := by
  unfold k0_pay1
  dsimp only
  rw [subf_apply, addf_apply, mulf_apply, broadcast_apply,
    Cert.LibColumn.broadcastTo_a1_ab_apply, Cert.LibColumn.shapeCast_a_a1_apply,
    broadcastTo_1b_ab_apply, shapeCast_a_1a_apply, rowSum_apply, rowSum_apply, product_apply]
  have ht : ∀ k : Fin 768, (transpose S768x256 [1, 0] (truncf (F := Ideal) .bf16 x1 bitsLt_bf16_f32) transposes_S256x768_p1_0_S768x256 (ix2 k q) : EReal)
      = x1 (ix2 q k) := by
    intro k
    exact (transpose_ix2_apply (truncf (F := Ideal) .bf16 x1 bitsLt_bf16_f32) transposes_S256x768_p1_0_S768x256 k q).trans rfl
  simp only [shapeCast_self, mulf_apply, truncf_apply, ht, Ideal.ofBits_def]

end Cert.KernelIdeal.Payload

end
-- ==== Proof.Spec.lean ====
/-
  Squared distances to a set of prototypes, as one function of the two argument arrays.

  For a row vector `a` and a prototype `b` of length 768 the squared Euclidean distance is expanded as
  `‖a‖² + ‖b‖² − 2·(a·b)`: the row's sum of squares, plus the prototype's sum of squares, minus twice the inner
  product. Over the extended reals this is stated exactly as written, term by term; no law of arithmetic is used to
  rearrange it, so nothing is asked of the entries (they may be infinite).

  Two arrangements of the rows occur. `dist` takes the rows as a `16 × 1024` table of vectors and writes entry
  `(b, s, q)`; `distFlat` takes the same rows numbered `0 … 16383` and writes entry `(r, q)`. Row `(b, s)` of the table
  is row `1024·b + s` of the list, and `dist_eq_reshape` says the two results are the same array read in row-major
  order.
-/
import Idealize.ShloMosaic.Lib.ValueIdx
import Idealize.ShloMosaic.Lib.ValueLayout
import Idealize.ShloMosaic.PureOps.Ideal.Laws

noncomputable section

open scoped BigOperators

namespace Cert.SqDist

open Idealize.ShloMosaic Idealize.ShloMosaic.ValueIdx

/-- The rows as a table `[16, 1024, 768]`, the prototypes `[256, 768]`: entry `(b, s, q)` is
    `(Σₖ x[b,s,k]² + Σₖ p[q,k]²) − 2 · Σₖ x[b,s,k] · p[q,k]`, the factor 2 kept as the f32 word it is printed as. -/
def dist (x : FVec Ideal ⟨3, ![16, 1024, 768]⟩ .f32) (p : FVec Ideal ⟨2, ![256, 768]⟩ .f32) :
    FVec Ideal ⟨3, ![16, 1024, 256]⟩ .f32 := fun i =>
  ((∑ k : Fin 768, x (ix3 (i 0) (i 1) k) * x (ix3 (i 0) (i 1) k))
      + ∑ k : Fin 768, p (ix2 (i 2) k) * p (ix2 (i 2) k))
    - Ideal.ofBits .f32 0x40000000#32 * ∑ k : Fin 768, x (ix3 (i 0) (i 1) k) * p (ix2 (i 2) k)

/-- The same with the rows as a list `[16384, 768]`: entry `(r, q)`. -/
def distFlat (xf : FVec Ideal ⟨2, ![16384, 768]⟩ .f32) (p : FVec Ideal ⟨2, ![256, 768]⟩ .f32) :
    FVec Ideal ⟨2, ![16384, 256]⟩ .f32 := fun i =>
  ((∑ k : Fin 768, xf (ix2 (i 0) k) * xf (ix2 (i 0) k))
      + ∑ k : Fin 768, p (ix2 (i 1) k) * p (ix2 (i 1) k))
    - Ideal.ofBits .f32 0x40000000#32 * ∑ k : Fin 768, xf (ix2 (i 0) k) * p (ix2 (i 1) k)

/-- Row `(b, s)` of the table is row `1024·b + s` of the list. -/
def flatRow (b : Fin 16) (s : Fin 1024) : Fin 16384 := ⟨b.val * 1024 + s.val, by have := b.isLt; have := s.isLt; omega⟩

/-- The table viewed as a list reads, at `(1024·b + s, k)`, the table at `(b, s, k)`: both have row-major position
    `(1024·b + s)·768 + k`. -/
theorem flatten_apply (x : FVec Ideal ⟨3, ![16, 1024, 768]⟩ .f32)
    (h : (⟨3, ![16, 1024, 768]⟩ : Shape).ShapeCasts ⟨2, ![16384, 768]⟩) (b : Fin 16) (s : Fin 1024) (k : Fin 768) :
    shapeCast ⟨2, ![16384, 768]⟩ x h (ix2 (flatRow b s) k) = x (ix3 b s k) :=
  shapeCast_apply x h _ _ (by
    rw [Shape.rowMajor_val_three, Shape.rowMajor_val_two]
    rfl)

/-- The distances of the list, viewed as a table, are the distances of the table. -/
theorem dist_eq_reshape (x : FVec Ideal ⟨3, ![16, 1024, 768]⟩ .f32) (p : FVec Ideal ⟨2, ![256, 768]⟩ .f32)
    (h : (⟨3, ![16, 1024, 768]⟩ : Shape).ShapeCasts ⟨2, ![16384, 768]⟩)
    (h' : (⟨2, ![16384, 256]⟩ : Shape).ShapeCasts ⟨3, ![16, 1024, 256]⟩) :
    shapeCast ⟨3, ![16, 1024, 256]⟩ (distFlat (shapeCast ⟨2, ![16384, 768]⟩ x h) p) h' = dist x p := by
  funext i
  obtain ⟨b, s, q, rfl⟩ : ∃ (b : Fin 16) (s : Fin 1024) (q : Fin 256), i = ix3 b s q := ⟨i 0, i 1, i 2, eq_ix3 i⟩
  rw [shapeCast_apply _ h' (ix3 b s q) (ix2 (flatRow b s) q) (by
    rw [Shape.rowMajor_val_three, Shape.rowMajor_val_two]
    rfl)]
  show ((∑ k : Fin 768, shapeCast ⟨2, ![16384, 768]⟩ x h (ix2 (flatRow b s) k) * shapeCast ⟨2, ![16384, 768]⟩ x h (ix2 (flatRow b s) k))
      + ∑ k : Fin 768, p (ix2 q k) * p (ix2 q k))
    - Ideal.ofBits .f32 0x40000000#32 * ∑ k : Fin 768, shapeCast ⟨2, ![16384, 768]⟩ x h (ix2 (flatRow b s) k) * p (ix2 q k)
    = ((∑ k : Fin 768, x (ix3 b s k) * x (ix3 b s k)) + ∑ k : Fin 768, p (ix2 q k) * p (ix2 q k))
    - Ideal.ofBits .f32 0x40000000#32 * ∑ k : Fin 768, x (ix3 b s k) * p (ix2 q k)
  simp only [flatten_apply]

end Cert.SqDist

end
-- ==== Proof.KValue.lean ====
/-
  What the idealized kernel leaves in its result.

  The program views the `16 × 1024` table of row vectors as a list of 16384 rows, runs the body on 16 consecutive
  blocks of 1024 rows, each time against all 256 prototypes, and views the `16384 × 256` array of results as a
  `16 × 1024 × 256` table again. Grid point `t` reads rows `1024·t … 1024·t + 1023` and writes the same rows of the
  result, so entry `(r, q)` of the array the region leaves is the squared distance of row `r` of the list to
  prototype `q`; the 16 blocks of rows tile the array. Viewing the list as a table commutes with this
  (`Cert.SqDist.dist_eq_reshape`), so the final table holds the specification's `dist` of the two arguments.
-/
import proofs.«116255_j50818053047012_1_alg».proof.Proof.Gen.KernelIdeal.Frame
import proofs.«116255_j50818053047012_1_alg».proof.Proof.Payload
import proofs.«116255_j50818053047012_1_alg».proof.Proof.Spec
import Idealize.ShloMosaic.Lib.Pipeline.Value
import Idealize.ShloMosaic.Lib.StableHlo.Run
import Idealize.ShloMosaic.Lib.Tactic

set_option maxRecDepth 16384

noncomputable section

open scoped BigOperators

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One entry of a written block -/

/-- If row `r` of the block of rows is row `i 0` of the list `xf`, and row `q` of the block of prototypes is prototype
    `i 1` of `p`, then entry `(r, q)` of the stored block is entry `i` of the distances of `xf` to `p`. -/
theorem block_entry (X0 : Vec Ideal S1024x768 .f32) (X1 : Vec Ideal S256x768 .f32)
    (xf : FVec Ideal S16384x768 .f32) (p : FVec Ideal S256x768 .f32) (r : Fin 1024) (q : Fin 256) (i : S16384x256.Idx)
    (h0 : ∀ k : Fin 768, X0 (ix2 r k) = xf (ix2 (i 0) k)) (h1 : ∀ k : Fin 768, X1 (ix2 q k) = p (ix2 (i 1) k)) :
    k0_pay1 (F := Ideal) X0 X1 (ix2 r q) = Cert.SqDist.distFlat xf p i := by
  rw [Cert.KernelIdeal.Payload.pay_apply]
  unfold Cert.SqDist.distFlat
  simp only [h0, h1]

/-- The same at any index `y` of the block. -/
theorem block_entry' (X0 : Vec Ideal S1024x768 .f32) (X1 : Vec Ideal S256x768 .f32)
    (xf : FVec Ideal S16384x768 .f32) (p : FVec Ideal S256x768 .f32) (y : S1024x256.Idx) (i : S16384x256.Idx)
    (h0 : ∀ k : Fin 768, X0 (ix2 (y 0) k) = xf (ix2 (i 0) k)) (h1 : ∀ k : Fin 768, X1 (ix2 (y 1) k) = p (ix2 (i 1) k)) :
    k0_pay1 (F := Ideal) X0 X1 y = Cert.SqDist.distFlat xf p i :=
  (congrArg (k0_pay1 (F := Ideal) X0 X1) (eq_ix2 y)).trans (block_entry X0 X1 xf p (y 0) (y 1) i h0 h1)

/-! ## The blocks of the three windows -/

/-- Over the 16 grid points: the rows' window and the result's window are both at block `t` of their arrays, with
    the full width; the prototypes' window is always the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the region's result array ends holding: the distances of the list of rows, as the region finds it, to
    the prototypes. -/
abbrev flatResult (c : Dev nD) : FVec Ideal S16384x256 .f32 :=
  Cert.SqDist.distFlat (V m c main_v0) (V m c main_arg1)

/-- What grid point `t` writes back is block `t` of `flatResult`. -/
theorem flushed_eq (c : Dev nD) (t : Fin cfg0.N) :
    (dats m 0 c).flushed 2 t = ((cfg0.win 2).blk t).view.read (Elt Ideal) (flatResult m c) := by
  show (cfg0.win 2).cut (grid0.coords t) ((dats m 0 c).after 2 t) = _
  rw [after0_2]
  unfold out0_2
  rw [View.canon_unit_zero hz]
  simp only [View.ld_unit_zero (S := S1024x768) hz, View.ld_unit_zero (S := S256x768) hz]
  obtain ⟨e0, e1, e2, e3, e4, e5⟩ := idx_facts t
  funext j
  show k0_pay1 (iblk m c 0 t) (iblk m c 1 t) j
    = Cert.SqDist.distFlat (V m c main_v0) (V m c main_arg1) (((cfg0.win 2).blk t).view.emb j)
  refine block_entry' _ _ _ _ j _ (fun k => ?_) (fun k => ?_)
  · show V m c main_v0 (((cfg0.win 0).blk t).view.emb (ix2 (j 0) k)) = V m c main_v0 (ix2 ((((cfg0.win 2).blk t).view.emb j) 0) k)
    refine congrArg (V m c main_v0) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 768 + 1 * k.val = k.val; omega
  · show V m c main_arg1 (((cfg0.win 1).blk t).view.emb (ix2 (j 1) k)) = V m c main_arg1 (ix2 ((((cfg0.win 2).blk t).view.emb j) 1) k)
    refine congrArg (V m c main_arg1) (funext fun a => Fin.ext ?_)
    match a with
    | ⟨0, _⟩ => show win0_1.index t (0 : Fin 2) * 256 + 1 * (j 1).val = win0_2.index t (1 : Fin 2) * 256 + 1 * (j 1).val; omega
    | ⟨1, _⟩ => show win0_1.index t (1 : Fin 2) * 768 + 1 * k.val = k.val; omega

/-- An index of the result array is in point `t`'s block iff each coordinate is in the block's range on its axis. -/
theorem mem_blk (t : Fin cfg0.N) (i : S16384x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v1).slice (win0_2.rect t)).set ↔ _
  rw [View.set_slice_whole, Rect.mem_set_unit]
  exact Iff.rfl

/-- Row `r` of the result is written by point `r / 1024`: the 16 blocks of 1024 rows tile the array. -/
theorem cover (i : S16384x256.Idx) : ∃ t : Fin cfg0.N, (cfg0.win 2).flush t = true ∧ i ∈ ((cfg0.win 2).blk t).view.set := by
  have hi0 : (i 0).val < 16384 := (i 0).isLt
  have hi1 : (i 1).val < 256 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- The region's result array after the run. -/
theorem final (c : Dev nD) : (dats m 0 c).arrAt 2 cfg0.N = flatResult m c :=
  (dats m 0 c).arrAt_eq_of_cover 2 (flatResult m c) (fun t _ => flushed_eq m c t) cover

/-! ## The views before and after the region -/

/-- The list of rows the region finds is the table of rows in row-major order. -/
theorem rows_eq (c : Dev nD) :
    (V m c main_v0 : S16384x768.Idx → EReal)
      = shapeCast S16384x768 (m ((c : Thread nD τ).loc main_arg0)) shapeCasts_S16x1024x768_S16384x768 := by
  show StableHlo.after hostOps0 (fun b => m (c, b)) (Proc.devRef .tc main_v0) = _
  after_results
  rfl

/-- The program's result: the specification's distances of the two arguments. -/
theorem result_eq (c : Dev nD) :
    Pipeline.afterTail₀ cfgs (dats m) 0 (V0 m) [hostOps1] c main_v2
      = Cert.SqDist.dist (m ((c : Thread nD τ).loc main_arg0)) (m ((c : Thread nD τ).loc main_arg1)) := by
  unfold Pipeline.afterTail₀
  show StableHlo.after hostOps1 _ (Proc.devRef .tc main_v2) = _
  after_results
  have hw : (Pipeline.withArrays (cfgs 0).spec c (V0 m c) (fun w => (dats m 0 c).arrAt w (cfgs 0).N) (Proc.devRef .tc main_v1) : S16384x256.Idx → EReal)
      = Cert.SqDist.distFlat (shapeCast S16384x768 (m ((c : Thread nD τ).loc main_arg0)) shapeCasts_S16x1024x768_S16384x768)
          (m ((c : Thread nD τ).loc main_arg1)) := by
    refine ((Pipeline.withArrays_arr spec0 launch0.win.arr_inj c _ _ 2).trans (final m c)).trans ?_
    show Cert.SqDist.distFlat (V m c main_v0) (V m c main_arg1) = _
    rw [rows_eq, V_main_arg1]
  exact (congrArg (fun z : S16384x256.Idx → EReal => shapeCast S16x1024x256 z shapeCasts_S16384x256_S16x1024x256) hw).trans
    (Cert.SqDist.dist_eq_reshape _ _ _ _)

/-! ## The run, read -/

/-- Every weakly fair execution of the idealized kernel program ends with its result table at the specification's
    distances of the two arguments, and the arguments as they were. -/
theorem run : θ_run defs (onTc (τ := τ) (main (F := Ideal))) ⟨m, fun _ => 0, ρ⟩ fun r => ∀ c : Dev nD,
      r.2.mem ((c.tc : Thread nD τ).loc main_v2)
        = Cert.SqDist.dist (m ((c.tc : Thread nD τ).loc main_arg0)) (m ((c.tc : Thread nD τ).loc main_arg1))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    have k0 : r.2.mem ((c.tc : Thread nD τ).loc main_arg0) = m ((c.tc : Thread nD τ).loc main_arg0) :=
      ((h c).2 main_arg0 (Pipeline.mem_restRefs_of main_arg0 (by decide) (by decide))).trans (W_main_arg0 m (dats m) c)
    have k1 : r.2.mem ((c.tc : Thread nD τ).loc main_arg1) = m ((c.tc : Thread nD τ).loc main_arg1) :=
      ((h c).1 1).trans (((dats m 0 c).arrAt_in 1 rfl _).trans ((A_eq m c 1).trans (V_main_arg1 m c)))
    ⟨((h c).2 main_v2 (Pipeline.mem_restRefs_of main_v2 (by decide) (by decide))).trans (result_eq m c), k1, k0, k1⟩)
    (run_main m ρ)

end Cert.KernelIdeal.KValue

end
-- ==== Proof.RefValue.lean ====
/-
  The reference program computes the squared distances of the specification.

  Read one operation at a time, entry `(b, s, q)` of the reference's result is
  `((0 + Σₖ x[b,s,k]·x[b,s,k]) + (0 + Σₖ p[q,k]·p[q,k])) − 2·Σₖ x[b,s,k]·p[q,k]`:
  the two sums of squares start from the initial value `0` of their reductions, are spread along the axes they
  lack, and the contraction pairs row `(b, s)` of `x` with row `q` of the prototypes. The initial zeros are the
  only difference from the specification's entry, and `0 + a = a` on the extended reals.
-/
import proofs.«116255_j50818053047012_1_alg».proof.Proof.Gen.ReferenceIdeal.Read
import proofs.«116255_j50818053047012_1_alg».proof.Proof.Spec

noncomputable section

open scoped BigOperators

namespace Cert.ReferenceIdeal.RefValue

open Cert.ReferenceIdeal Cert.ReferenceIdeal.Read Idealize.ShloMosaic Idealize.ShloMosaic.ValueIdx

/-- The row of `x` that the sum of squares at `(b, s, q)` runs over: the broadcasts keep `(b, s)`. -/
theorem sq_row (i : S16x1024x256.Idx) (k : Fin 768) :
    idx_main_v1 (idx_main_v2 (idx_main_v7 i)) k = ix3 (i 0) (i 1) k :=
  funext fun a => Fin.ext (by match a with | ⟨0, _⟩ => rfl | ⟨1, _⟩ => rfl | ⟨2, _⟩ => rfl)

/-- The prototype row that the sum of squares at `(b, s, q)` runs over: the broadcasts keep `q`. -/
theorem sq_proto (i : S16x1024x256.Idx) (k : Fin 768) :
    idx_main_v4 (idx_main_v6 (idx_main_v8 i)) k = ix2 (i 2) k :=
  funext fun a => Fin.ext (by match a with | ⟨0, _⟩ => rfl | ⟨1, _⟩ => rfl)

/-- The contraction's left factor at `(b, s, q)`, `k`. -/
theorem dot_row (i : S16x1024x256.Idx) (k : Fin 768) : lidx_main_v5 i k = ix3 (i 0) (i 1) k :=
  funext fun a => Fin.ext (by match a with | ⟨0, _⟩ => rfl | ⟨1, _⟩ => rfl | ⟨2, _⟩ => rfl)

/-- The contraction's right factor at `(b, s, q)`, `k`. -/
theorem dot_proto (i : S16x1024x256.Idx) (k : Fin 768) : ridx_main_v5 i k = ix2 (i 2) k :=
  funext fun a => Fin.ext (by match a with | ⟨0, _⟩ => rfl | ⟨1, _⟩ => rfl)

/-- The reference's last stage is the specification's `dist` of the two arguments. -/
theorem ref_eq (x : FVec Ideal S16x1024x768 .f32) (p : FVec Ideal S256x768 .f32) :
    val_main_v12 (F := Ideal) x p = Cert.SqDist.dist x p := by
  funext i
  rw [val_main_v12_apply, val_main_v9_apply, val_main_v11_apply, val_main_v7_apply, val_main_v2_apply,
    val_main_v1_apply, val_main_v8_apply, val_main_v6_apply, val_main_v4_apply, val_main_v10_apply,
    val_main_v5_apply, val_main_cst_apply, val_main_cst_0_apply, val_main_cst_1_apply]
  simp only [val_main_v0_apply, val_main_v3_apply, sq_row, sq_proto, dot_row, dot_proto, Ideal.ofBits_def,
    Ideal.addf_def, Ideal.subf_def, Ideal.mulf_def, Ideal.ofBits_zero_f32, zero_add]
  rfl

end Cert.ReferenceIdeal.RefValue

end
-- ==== Proof.lean ====
/-
  Squared distances to 256 prototypes: the kernel against its reference, over the extended reals.

  Both programs compute, for every row vector `x[b, s, ·]` of a `16 × 1024` table and every prototype `p[q, ·]`, each of
  length 768, the squared Euclidean distance in the expanded form `‖a‖² + ‖b‖² − 2·(a·b)`:
  `(Σₖ x[b,s,k]² + Σₖ p[q,k]²) − 2 · Σₖ x[b,s,k] · p[q,k]`, and both return the prototypes unchanged as a second result.
  The reference does it on the whole table at once. The kernel numbers the rows `0 … 16383`, works through them in 16
  blocks of 1024 against all prototypes, forms the inner products by a matrix product with the transposed
  prototypes after a change of float format (the identity on extended reals), and views the result as a table again.
  Entry by entry the two results are the same expression (`Cert.SqDist.dist`): the only differences are the initial
  value `0` of the reference's two reductions and the numbering of the rows, so no law that could fail at an infinity
  is used, and the precondition that the inputs are finite is never opened.

  The three frames are the generated ones (the reference's is its generated run with the result dropped), the
  idealization rewrote nothing, and the value claim joins the kernel's run (`Cert.KernelIdeal.KValue.run`) to the
  reference's run read one operation at a time (`Cert.ReferenceIdeal.RefValue.ref_eq`).
-/
import proofs.«116255_j50818053047012_1_alg».proof.Defs
import proofs.«116255_j50818053047012_1_alg».proof.Proof.Gen.Kernel
import proofs.«116255_j50818053047012_1_alg».proof.Proof.Gen.Kernel.Skeleton
import proofs.«116255_j50818053047012_1_alg».proof.Proof.Gen.Kernel.Launch
import proofs.«116255_j50818053047012_1_alg».proof.Proof.Gen.Kernel.Points
import proofs.«116255_j50818053047012_1_alg».proof.Proof.Gen.Kernel.Frame
import proofs.«116255_j50818053047012_1_alg».proof.Proof.Gen.KernelIdeal
import proofs.«116255_j50818053047012_1_alg».proof.Proof.Gen.KernelIdeal.Skeleton
import proofs.«116255_j50818053047012_1_alg».proof.Proof.Gen.KernelIdeal.Launch
import proofs.«116255_j50818053047012_1_alg».proof.Proof.Gen.KernelIdeal.Points
import proofs.«116255_j50818053047012_1_alg».proof.Proof.Gen.KernelIdeal.Frame
import proofs.«116255_j50818053047012_1_alg».proof.Proof.Gen.ReferenceIdeal
import proofs.«116255_j50818053047012_1_alg».proof.Proof.Gen.Pre_finite_inputs
import proofs.«116255_j50818053047012_1_alg».proof.Proof.Gen.ReferenceIdeal.Run
import proofs.«116255_j50818053047012_1_alg».proof.Proof.Gen.ReferenceIdeal.Read
import proofs.«116255_j50818053047012_1_alg».proof.Proof.KValue
import proofs.«116255_j50818053047012_1_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with what it says of the result dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- From memories that agree on the rows and the prototypes, both programs end with the table of squared distances
    `Cert.SqDist.dist` of the two arguments as first result and the prototypes as second. -/
theorem algebraic : Cert.algebraic_KernelIdeal_ReferenceIdeal := by
  intro m ρ m' ρ' _ hagree
  refine ⟨fun c => Cert.SqDist.dist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg1),
    Cert.KernelIdeal.KValue.run m ρ, ?_⟩
  refine (θ_run Cert.ReferenceIdeal.defs _ _).mono (fun _ h c => ⟨?_, (h c).2.1.trans (hagree c).2, (h c).2.2.1, (h c).2.2.2⟩)
    (Cert.ReferenceIdeal.Value.run (F := Ideal) m' ρ')
  rw [(h c).1, Cert.ReferenceIdeal.Read.val_main_v12_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
